-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024x2048 : Shape := ⟨3, ![8, 1024, 2048]⟩
abbrev S8x2048x1024 : Shape := ⟨3, ![8, 2048, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn_part1 {F : FTy → Type} [FloatOps F] (main_v13 : IVec S_ 1) (main_v16 : IVec S8x1024x2048 1) : IVec S_ 1 :=
  let main_c_5 : IVec S_ 1 := constantI S_ 1 1#1
  let main_v17 : IVec S_ 1 := (fun x v => Host.reduce IntOp.andi x v reducesTo_S8x1024x2048_S_d0_1_2 h_S_) main_v16 main_c_5
  let main_v18 : IVec S_ 1 := andi main_v13 main_v17
  main_v18

def fn {F : FTy → Type} [FloatOps F] (main_arg0 : FVec F S8x1024x1024 .f32) (main_arg1 : FVec F S8x1024x2048 .f32) (main_arg2 : FVec F S8x2048x1024 .f32) (main_arg3 : FVec F S8x1024x2048 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x2048 .f32 := Host.absf main_arg1
  let main_cst_0 : FVec F S_ .f32 := constant S_ .f32 0x7F800000#32
  let main_v5 : FVec F S8x1024x2048 .f32 := broadcastInDim S8x1024x2048 ![] bcast_S_S8x1024x2048 main_cst_0
  let main_v6 : IVec S8x1024x2048 1 := cmpf .olt main_v4 main_v5
  let main_c_1 : IVec S_ 1 := constantI S_ 1 1#1
  let main_v7 : IVec S_ 1 := (fun x v => Host.reduce IntOp.andi x v reducesTo_S8x1024x2048_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x1024x2048 .f32 := Host.absf main_arg3
  let main_cst_4 : FVec F S_ .f32 := constant S_ .f32 0x7F800000#32
  let main_v15 : FVec F S8x1024x2048 .f32 := broadcastInDim S8x1024x2048 ![] bcast_S_S8x1024x2048 main_cst_4
  let main_v16 : IVec S8x1024x2048 1 := cmpf .olt main_v14 main_v15
  fn_part1 (F := F) main_v13 main_v16
-- ==== Kernel.lean ====
abbrev S8x1024x1024 : Shape := ⟨3, ![8, 1024, 1024]⟩
abbrev S8x1024x2048 : Shape := ⟨3, ![8, 1024, 2048]⟩
abbrev S8x2048x1024 : Shape := ⟨3, ![8, 2048, 1024]⟩
abbrev S1x256x1024 : Shape := ⟨3, ![1, 256, 1024]⟩
abbrev S1x1024x2048 : Shape := ⟨3, ![1, 1024, 2048]⟩
abbrev S1x2048x1024 : Shape := ⟨3, ![1, 2048, 1024]⟩
abbrev S256x1024 : Shape := ⟨2, ![256, 1024]⟩
abbrev S1024x2048 : Shape := ⟨2, ![1024, 2048]⟩
abbrev S256x2048 : Shape := ⟨2, ![256, 2048]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x1024x1024, .f32⟩
  | .hbm, ⟨1, _⟩ => ⟨S8x1024x2048, .f32⟩
  | .hbm, ⟨2, _⟩ => ⟨S8x2048x1024, .f32⟩
  | .hbm, ⟨3, _⟩ => ⟨S8x1024x2048, .f32⟩
  | .hbm, ⟨4, _⟩ => ⟨S8x1024x1024, .bf16⟩
  | .hbm, ⟨5, _⟩ => ⟨S8x1024x2048, .bf16⟩
  | .hbm, ⟨6, _⟩ => ⟨S8x2048x1024, .bf16⟩
  | .hbm, ⟨7, _⟩ => ⟨S8x1024x2048, .bf16⟩
  | .hbm, ⟨8, _⟩ => ⟨S8x1024x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x256x1024, .f32⟩
  | .local _ .vmem, ⟨9, _⟩ => ⟨S1x256x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S256x1024_S1x256x1024 : S256x1024.ShapeCasts S1x256x1024
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1024x1024.size a
  hwx0_0 : ∀ i : grid0.Coords, EltTy.bits .bf16 = 32 ∨ (Rect.block (s := S8x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .bf16 = 32 ∨ (Rect.block (s := S8x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .bf16 = 32 ∨ (Rect.block (s := S8x1024x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x1024x1024.size a
  hwx0_4 : ∀ i : grid0.Coords, EltTy.bits .f32 = 32 ∨ (Rect.block (s := S8x1024x1024) S1x256x1024.size (cc0_transform_4 i) (hinb0_4 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x1024x2048 : Shape := ⟨3, ![8, 1024, 2048]⟩
abbrev S8x2048x1024 : Shape := ⟨3, ![8, 2048, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024x2048, .f32⟩
  | .hbm, ⟨2, _⟩ => ⟨S8x2048x1024, .f32⟩
  | .hbm, ⟨3, _⟩ => ⟨S8x1024x2048, .f32⟩
  | .hbm, ⟨4, _⟩ => ⟨S8x1024x2048, .f32⟩
  | .hbm, ⟨5, _⟩ => ⟨S8x1024x2048, .f32⟩
  | .hbm, ⟨6, _⟩ => ⟨S8x1024x2048, .f32⟩
  | .hbm, ⟨7, _⟩ => ⟨S_, .f32⟩
  | .hbm, ⟨8, _⟩ => ⟨S8x1024x2048, .f32⟩
  | .hbm, ⟨9, _⟩ => ⟨S8x1024x2048, .f32⟩
  | .hbm, ⟨10, _⟩ => ⟨S_, .f32⟩
  | .hbm, ⟨11, _⟩ => ⟨S8x1024x2048, .f32⟩
  | .hbm, ⟨12, _⟩ => ⟨S8x1024x2048, .f32⟩
  | .hbm, ⟨13, _⟩ => ⟨S8x1024x2048, .f32⟩
  | .hbm, ⟨14, _⟩ => ⟨S8x1024x2048, .f32⟩
  | .hbm, ⟨15, _⟩ => ⟨S8x1024x2048, .f32⟩
  | .hbm, ⟨16, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x1024x2048 : S_.BroadcastsInDim S8x1024x2048 (![] : Fin 0 → Fin S8x1024x2048.rank)
  dot_S8x1024x1024_S8x1024x2048_S8x1024x2048_2_1_1_2_0_0_wf : DotDims.WF S8x1024x1024 S8x1024x2048 S8x1024x2048 [2] [1] [1] [2] [0] [0]
  dot_S8x1024x2048_S8x2048x1024_S8x1024x1024_2_1_1_2_0_0_wf : DotDims.WF S8x1024x2048 S8x2048x1024 S8x1024x1024 [2] [1] [1] [2] [0] [0]

variable [Facts₀]

def dot_S8x1024x1024_S8x1024x2048_S8x1024x2048_2_1_1_2_0_0 : DotDims S8x1024x1024 S8x1024x2048 S8x1024x2048 where
  lhsContracting := [2]
  rhsContracting := [1]
  lhsNonContracting := [1]
  rhsNonContracting := [2]
  lhsBatch := [0]
  rhsBatch := [0]
  wf := dot_S8x1024x1024_S8x1024x2048_S8x1024x2048_2_1_1_2_0_0_wf
def dot_S8x1024x2048_S8x2048x1024_S8x1024x1024_2_1_1_2_0_0 : DotDims S8x1024x2048 S8x2048x1024 S8x1024x1024 where
  lhsContracting := [2]
  rhsContracting := [1]
  lhsNonContracting := [1]
  rhsNonContracting := [2]
  lhsBatch := [0]
  rhsBatch := [0]
  wf := dot_S8x1024x2048_S8x2048x1024_S8x1024x1024_2_1_1_2_0_0_wf

class Facts : Prop extends Facts₀ where

variable [Facts]
-- ==== Proof.Swiglu.lean ====
/-
  The per-expert gated feed-forward layer as ONE function of its four argument arrays, on the extended reals.

  For expert `e`, token `t` and output feature `d`:

      out[e, t, d] = ∑ h, hidden[e, t, h] · w2[e, h, d]
      hidden[e, t, h] = (g · σ(g)) · u        with  g = ∑ k, x[e, t, k] · w1[e, k, h]   (the gate's projection)
                                                    u = ∑ k, x[e, t, k] · w3[e, k, h]   (the up projection)

  and σ(g) = 1 / (1 + e^(-g)) the logistic function, so `g · σ(g)` is SiLU. Both programs compute exactly this
  expression, in this order of multiplication; only how the sums are laid out over blocks differs, and a finite
  sum on the extended reals does not depend on its layout. Nothing here needs the inputs to be finite.
-/
import Idealize.ShloMosaic.PureOps.Ideal
import Idealize.ShloMosaic.Lib.ValueIdx

noncomputable section

namespace Cert.Swiglu

open Idealize.ShloMosaic Idealize.ShloMosaic.ValueIdx

/-- Tokens `x[e, t, k]` and the result `out[e, t, d]`: 8 experts, 1024 tokens each, model width 1024. -/
abbrev STok : Shape := ⟨3, ![8, 1024, 1024]⟩
/-- The gate and up weights `w1[e, k, h]`, `w3[e, k, h]`: hidden width 2048. -/
abbrev SIn : Shape := ⟨3, ![8, 1024, 2048]⟩
/-- The down weights `w2[e, h, d]`. -/
abbrev SDown : Shape := ⟨3, ![8, 2048, 1024]⟩

/-- One projection of a token onto a hidden feature: `∑ k, x[e, t, k] · w[e, k, h]`. -/
def proj (x : STok.Idx → EReal) (w : SIn.Idx → EReal) (e : Fin 8) (t : Fin 1024) (h : Fin 2048) : EReal :=
  ∑ k : Fin 1024, x (ix3 e t k) * w (ix3 e k h)

/-- The hidden activation: SiLU of the gate's projection, times the up projection. -/
def hidden (x : STok.Idx → EReal) (w1 w3 : SIn.Idx → EReal) (e : Fin 8) (t : Fin 1024) (h : Fin 2048) : EReal :=
  proj x w1 e t h * Ideal.logistic (proj x w1 e t h) * proj x w3 e t h

/-- The layer's result: the hidden activation projected back down by `w2`. -/
def out (x : STok.Idx → EReal) (w1 : SIn.Idx → EReal) (w2 : SDown.Idx → EReal) (w3 : SIn.Idx → EReal) :
    STok.Idx → EReal :=
  fun i => ∑ h : Fin 2048, hidden x w1 w3 (i 0) (i 1) h * w2 (ix3 (i 0) h (i 2))

end Cert.Swiglu

end
-- ==== Proof.RefSwiglu.lean ====
/-
  The reference computes the gated feed-forward layer `Cert.Swiglu.out`.

  Its program is three batched matrix products (batch axis: the expert) around SiLU spelt out as
  `g · (1 / (1 + exp (-g)))`. Read at an output index `(e, t, d)` the last product is a sum over the hidden
  feature `h` of the hidden activation at `(e, t, h)` times `w2[e, h, d]`; the hidden activation is the product
  of the two projections at `(e, t, h)`, each a sum over `k`, with the quotient `1 / (1 + exp (-g))` being the
  logistic function of the gate's projection — on every extended real, the infinities included, since the logistic
  function at the ideal values is defined as exactly that quotient.
-/
import proofs.«109114_j11991548691208_1_alg».proof.Proof.Gen.ReferenceIdeal.Read
import proofs.«109114_j11991548691208_1_alg».proof.Proof.Swiglu
import Idealize.ShloMosaic.Lib.IdealHost

noncomputable section

namespace Cert.ReferenceIdeal.IsSwiglu

open Cert.ReferenceIdeal Cert.ReferenceIdeal.Read Idealize.ShloMosaic Idealize.ShloMosaic.ValueIdx Cert.Swiglu

/-- The logistic function spelt out — one over one plus the exponential of the negation — is the logistic function
    at the ideal values, by definition. -/
theorem quotient_eq_logistic (g : EReal) :
    FloatOps.hostDivf (F := Ideal) (φ := .f32) 1 (FloatOps.addf 1 (FloatOps.hostUnary .exp (FloatOps.hostNegf g)))
      = Ideal.logistic g := rfl

/-! The operand indices of the three products, by coordinates: at output index `(e, t, d)` and hidden feature `h`
    the last product reads the hidden activation at `(e, t, h)` and `w2` at `(e, h, d)`; at `(e, t, h)` and
    contraction index `k` a projection reads `x` at `(e, t, k)` and its weights at `(e, k, h)`. -/

theorem down_rhs (i : S8x1024x1024.Idx) (h : Fin 2048) : ridx_main_v4 i h = ix3 (i 0) h (i 2) :=
  funext fun a => match a with | ⟨0, _⟩ => rfl | ⟨1, _⟩ => rfl | ⟨2, _⟩ => rfl

theorem gate_lhs (i : S8x1024x1024.Idx) (h : Fin 2048) (k : Fin 1024) :
    lidx_main_v0 (lidx_main_v4 i h) k = ix3 (i 0) (i 1) k :=
  funext fun a => match a with | ⟨0, _⟩ => rfl | ⟨1, _⟩ => rfl | ⟨2, _⟩ => rfl

theorem gate_rhs (i : S8x1024x1024.Idx) (h : Fin 2048) (k : Fin 1024) :
    ridx_main_v0 (lidx_main_v4 i h) k = ix3 (i 0) k h :=
  funext fun a => match a with | ⟨0, _⟩ => rfl | ⟨1, _⟩ => rfl | ⟨2, _⟩ => rfl

theorem up_lhs (i : S8x1024x1024.Idx) (h : Fin 2048) (k : Fin 1024) :
    lidx_main_v2 (lidx_main_v4 i h) k = ix3 (i 0) (i 1) k :=
  funext fun a => match a with | ⟨0, _⟩ => rfl | ⟨1, _⟩ => rfl | ⟨2, _⟩ => rfl

theorem up_rhs (i : S8x1024x1024.Idx) (h : Fin 2048) (k : Fin 1024) :
    ridx_main_v2 (lidx_main_v4 i h) k = ix3 (i 0) k h :=
  funext fun a => match a with | ⟨0, _⟩ => rfl | ⟨1, _⟩ => rfl | ⟨2, _⟩ => rfl

/-- The gate's product at `(e, t, h)` is the projection onto `w1`. -/
theorem gate_eq (x : STok.Idx → EReal) (w1 : SIn.Idx → EReal) (i : S8x1024x1024.Idx) (h : Fin 2048) :
    val_main_v0 (F := Ideal) x w1 (lidx_main_v4 i h) = proj x w1 (i 0) (i 1) h := by
  rw [val_main_v0_apply]
  unfold proj
  exact Finset.sum_congr rfl fun k _ => by rw [gate_lhs, gate_rhs]; rfl

/-- The up product at `(e, t, h)` is the projection onto `w3`. -/
theorem up_eq (x : STok.Idx → EReal) (w3 : SIn.Idx → EReal) (i : S8x1024x1024.Idx) (h : Fin 2048) :
    val_main_v2 (F := Ideal) x w3 (lidx_main_v4 i h) = proj x w3 (i 0) (i 1) h := by
  rw [val_main_v2_apply]
  unfold proj
  exact Finset.sum_congr rfl fun k _ => by rw [up_lhs, up_rhs]; rfl

/-- The reference's elementwise stage at `(e, t, h)` is the hidden activation. -/
theorem hidden_eq (x : STok.Idx → EReal) (w1 w3 : SIn.Idx → EReal) (i : S8x1024x1024.Idx) (h : Fin 2048) :
    val_main_v3 (F := Ideal) x w1 w3 (lidx_main_v4 i h) = hidden x w1 w3 (i 0) (i 1) h := by
  rw [val_main_v3_apply, val_main_v1_apply, val_main_call0_v5_apply, val_main_call0_v4_apply,
    val_main_call0_cst_0_apply, val_main_call0_v3_apply, val_main_call0_v2_apply, val_main_call0_cst_apply,
    val_main_call0_v1_apply, val_main_call0_v0_apply, gate_eq, up_eq]
  show proj x w1 (i 0) (i 1) h * FloatOps.hostDivf (F := Ideal) (φ := .f32) (Ideal.ofBits .f32 0x3F800000#32)
      (FloatOps.addf (Ideal.ofBits .f32 0x3F800000#32) (FloatOps.hostUnary .exp (FloatOps.hostNegf (proj x w1 (i 0) (i 1) h))))
      * proj x w3 (i 0) (i 1) h = _
  rw [Ideal.ofBits_one_f32, quotient_eq_logistic]
  rfl

/-- The reference's result is the layer's function of the four arguments. -/
theorem result_eq (x : STok.Idx → EReal) (w1 : SIn.Idx → EReal) (w2 : SDown.Idx → EReal) (w3 : SIn.Idx → EReal) :
    val_main_v4 (F := Ideal) x w1 w2 w3 = out x w1 w2 w3 := by
  funext i
  rw [val_main_v4_apply]
  unfold out
  exact Finset.sum_congr rfl fun h _ => by rw [hidden_eq, down_rhs]; rfl

end Cert.ReferenceIdeal.IsSwiglu

end
-- ==== Proof.TileSwiglu.lean ====
/-
  What the kernel's body computes on one tile, read at one index.

  At a grid point the body holds a tile of 256 tokens of one expert, `xt[0, p, k]`, and that expert's three weight
  blocks `w1t[0, k, h]`, `w3t[0, k, h]`, `w2t[0, h, d]` (the leading unit axis is the squeezed expert axis). It forms
  the two projections of the tile as block products into a zero accumulator, multiplies SiLU of the first by the
  second, and multiplies the result by `w2t`, again into a zero accumulator. At row `p` and column `d` of the tile
  that is

      ∑ h, (g · σ(g) · u) · w2t[0, h, d]     g = ∑ k, xt[0, p, k] · w1t[0, k, h],   u = ∑ k, xt[0, p, k] · w3t[0, k, h]

  — a block product into zero is the plain sum of products over the contracted axis, and the changes of float format
  between the products are the identity on the extended reals.
-/
import proofs.«109114_j11991548691208_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## The projections' product: a [256, 1024] tile times a [1024, 2048] block

    At output index `(p, h)` and contraction index `k` the left operand is read at `(p, k)` and the right at `(k, h)`. -/

theorem proj_lhs_0 (j : S256x2048.Idx) (q : dot_S256x1024_S1024x2048_S256x2048_1_0_0_1_n_n.contr.Idx) :
    (dot_S256x1024_S1024x2048_S256x2048_1_0_0_1_n_n.lhsIdx j q 0).val = (j 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem proj_lhs_1 (j : S256x2048.Idx) (q : dot_S256x1024_S1024x2048_S256x2048_1_0_0_1_n_n.contr.Idx) :
    (dot_S256x1024_S1024x2048_S256x2048_1_0_0_1_n_n.lhsIdx j q 1).val = (q ⟨0, by decide⟩).val :=
  dot_S256x1024_S1024x2048_S256x2048_1_0_0_1_n_n.lhsIdx_val_of_single rfl j q
theorem proj_rhs_0 (j : S256x2048.Idx) (q : dot_S256x1024_S1024x2048_S256x2048_1_0_0_1_n_n.contr.Idx) :
    (dot_S256x1024_S1024x2048_S256x2048_1_0_0_1_n_n.rhsIdx j q 0).val = (q ⟨0, by decide⟩).val :=
  dot_S256x1024_S1024x2048_S256x2048_1_0_0_1_n_n.rhsIdx_val_of_single rfl j q
theorem proj_rhs_1 (j : S256x2048.Idx) (q : dot_S256x1024_S1024x2048_S256x2048_1_0_0_1_n_n.contr.Idx) :
    (dot_S256x1024_S1024x2048_S256x2048_1_0_0_1_n_n.rhsIdx j q 1).val = (j 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The product into a zero accumulator, at `(p, h)`: the sum over `k` of left `(p, k)` times right `(k, h)`. -/
theorem proj_product (a : FVec Ideal S256x1024 .bf16) (b : FVec Ideal S1024x2048 .bf16) (p : Fin 256) (h : Fin 2048) :
    matmul dot_S256x1024_S1024x2048_S256x2048_1_0_0_1_n_n none a b (constant S256x2048 .f32 0x00000000#32) (ix2 p h)
      = ∑ k : Fin 1024, a (ix2 p k) * b (ix2 k h) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p h) ((contrEquiv1 dot_S256x1024_S1024x2048_S256x2048_1_0_0_1_n_n 1024 rfl rfl).symm k) = ix2 p k := funext fun a => Fin.ext (by
    match a with
    | ⟨0, _⟩ => exact proj_lhs_0 _ _
    | ⟨1, _⟩ => exact (proj_lhs_1 _ _).trans hk)
  have er : dot_S256x1024_S1024x2048_S256x2048_1_0_0_1_n_n.rhsIdx (ix2 p h) ((contrEquiv1 dot_S256x1024_S1024x2048_S256x2048_1_0_0_1_n_n 1024 rfl rfl).symm k) = ix2 k h := funext fun a => Fin.ext (by
    match a with
    | ⟨0, _⟩ => exact (proj_rhs_0 _ _).trans hk
    | ⟨1, _⟩ => exact proj_rhs_1 _ _)
  rw [el, er]

/-! ## The down product: the [256, 2048] hidden tile times a [2048, 1024] block

    At output index `(p, d)` and contraction index `h` the left operand is read at `(p, h)` and the right at `(h, d)`. -/

theorem down_lhs_0 (j : S256x1024.Idx) (q : dot_S256x2048_S2048x1024_S256x1024_1_0_0_1_n_n.contr.Idx) :
    (dot_S256x2048_S2048x1024_S256x1024_1_0_0_1_n_n.lhsIdx j q 0).val = (j 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem down_lhs_1 (j : S256x1024.Idx) (q : dot_S256x2048_S2048x1024_S256x1024_1_0_0_1_n_n.contr.Idx) :
    (dot_S256x2048_S2048x1024_S256x1024_1_0_0_1_n_n.lhsIdx j q 1).val = (q ⟨0, by decide⟩).val :=
  dot_S256x2048_S2048x1024_S256x1024_1_0_0_1_n_n.lhsIdx_val_of_single rfl j q
theorem down_rhs_0 (j : S256x1024.Idx) (q : dot_S256x2048_S2048x1024_S256x1024_1_0_0_1_n_n.contr.Idx) :
    (dot_S256x2048_S2048x1024_S256x1024_1_0_0_1_n_n.rhsIdx j q 0).val = (q ⟨0, by decide⟩).val :=
  dot_S256x2048_S2048x1024_S256x1024_1_0_0_1_n_n.rhsIdx_val_of_single rfl j q
theorem down_rhs_1 (j : S256x1024.Idx) (q : dot_S256x2048_S2048x1024_S256x1024_1_0_0_1_n_n.contr.Idx) :
    (dot_S256x2048_S2048x1024_S256x1024_1_0_0_1_n_n.rhsIdx j q 1).val = (j 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The product into a zero accumulator, at `(p, d)`: the sum over `h` of left `(p, h)` times right `(h, d)`. -/
theorem down_product (a : FVec Ideal S256x2048 .bf16) (b : FVec Ideal S2048x1024 .bf16) (p : Fin 256) (d : Fin 1024) :
    matmul dot_S256x2048_S2048x1024_S256x1024_1_0_0_1_n_n none a b (constant S256x1024 .f32 0x00000000#32) (ix2 p d)
      = ∑ h : Fin 2048, a (ix2 p h) * b (ix2 h d) := by
  simp only [matmul]
  rw [Ideal.matmul_constant_zero_apply, ← Equiv.sum_comp (contrEquiv1 dot_S256x2048_S2048x1024_S256x1024_1_0_0_1_n_n 2048 rfl rfl).symm]
  refine Finset.sum_congr rfl fun h _ => ?_
  have hk := contrEquiv1_symm_val dot_S256x2048_S2048x1024_S256x1024_1_0_0_1_n_n 2048 rfl rfl h
  have el : dot_S256x2048_S2048x1024_S256x1024_1_0_0_1_n_n.lhsIdx (ix2 p d) ((contrEquiv1 dot_S256x2048_S2048x1024_S256x1024_1_0_0_1_n_n 2048 rfl rfl).symm h) = ix2 p h := funext fun a => Fin.ext (by
    match a with
    | ⟨0, _⟩ => exact down_lhs_0 _ _
    | ⟨1, _⟩ => exact (down_lhs_1 _ _).trans hk)
  have er : dot_S256x2048_S2048x1024_S256x1024_1_0_0_1_n_n.rhsIdx (ix2 p d) ((contrEquiv1 dot_S256x2048_S2048x1024_S256x1024_1_0_0_1_n_n 2048 rfl rfl).symm h) = ix2 h d := funext fun a => Fin.ext (by
    match a with
    | ⟨0, _⟩ => exact (down_rhs_0 _ _).trans hk
    | ⟨1, _⟩ => exact down_rhs_1 _ _)
  rw [el, er]

/-! ## The tile's values -/

/-- One projection of row `p` of the token tile onto hidden feature `h`. -/
def proj (xt : Vec Ideal S1x256x1024 .bf16) (wt : Vec Ideal S1x1024x2048 .bf16) (p : Fin 256) (h : Fin 2048) : EReal :=
  ∑ k : Fin 1024, xt (ix3 (0 : Fin 1) p k) * wt (ix3 (0 : Fin 1) k h)

/-- The hidden activation of row `p` at feature `h`: SiLU of the gate's projection times the up projection. -/
def hidden (xt : Vec Ideal S1x256x1024 .bf16) (w1t w3t : Vec Ideal S1x1024x2048 .bf16) (p : Fin 256) (h : Fin 2048) : EReal :=
  proj xt w1t p h * Ideal.logistic (proj xt w1t p h) * proj xt w3t p h

/-- The body's product of the squeezed token tile with a squeezed weight block is the projection. -/
theorem proj_eq (xt : Vec Ideal S1x256x1024 .bf16) (wt : Vec Ideal S1x1024x2048 .bf16)
    (hx : S1x256x1024.ShapeCasts S256x1024) (hw : S1x1024x2048.ShapeCasts S1024x2048) (p : Fin 256) (h : Fin 2048) :
    matmul (F := Ideal) (φ₁ := .bf16) (φ₂ := .bf16) dot_S256x1024_S1024x2048_S256x2048_1_0_0_1_n_n none (shapeCast S256x1024 xt hx) (shapeCast S1024x2048 wt hw) (constant S256x2048 .f32 0x00000000#32) (ix2 p h)
      = proj xt wt p h := by
  rw [proj_product]
  unfold proj
  exact Finset.sum_congr rfl fun k _ => by rw [shapeCast_1ab_ab_apply, shapeCast_1ab_ab_apply]

/-- The logistic function of a vector, at an index. -/
theorem logistic_apply {s : Shape} {φ : FTy} (a : FVec Ideal s φ) (i : s.Idx) : logistic a i = Ideal.logistic (a i) := rfl

/-- THE PAYLOAD AT AN INDEX: what the body stores at row `p`, column `d` of the output tile. -/
theorem payload_apply (xt : Vec Ideal S1x256x1024 .bf16) (w1t w3t : Vec Ideal S1x1024x2048 .bf16)
    (w2t : Vec Ideal S1x2048x1024 .bf16) (u : Fin 1) (p : Fin 256) (d : Fin 1024) :
    k0_pay1 (F := Ideal) xt w1t w3t w2t (ix3 u p d) = ∑ h : Fin 2048, hidden xt w1t w3t p h * w2t (ix3 (0 : Fin 1) h d) := by
  unfold k0_pay1
  rw [shapeCast_ab_1ab_apply, down_product]
  refine Finset.sum_congr rfl fun h _ => ?_
  rw [shapeCast_1ab_ab_apply, truncf_apply, mulf_apply, mulf_apply, logistic_apply, proj_eq, proj_eq]
  rfl

end Cert.KernelIdeal.Tile

end
-- ==== Proof.ArrSwiglu.lean ====
/-
  The kernel's result array is the gated feed-forward layer `Cert.Swiglu.out` of its four arguments.

  The grid has a point for every expert `e` and every tile `r` of 256 of that expert's tokens. At that point the
  token window holds rows `256 r … 256 r + 255` of expert `e`'s tokens, the three weight windows hold expert `e`'s
  whole weight matrices, and the output window is written back to the same rows of expert `e`'s result. The arrays
  the windows read are the arguments after a change of float format, which is the identity on the extended reals. So
  what the point writes back — the body's value on the tile (Proof/TileSwiglu.lean) — is the layer's function read
  through the point's block: the tile's row `p` is token `256 r + p`, and a sum over `k` or `h` of the blocks' entries
  is the same sum of the arrays' entries. The 32 output blocks tile the result array, so it ends holding the layer's
  function everywhere.
-/
import proofs.«109114_j11991548691208_1_alg».proof.Proof.Gen.KernelIdeal.Value
import proofs.«109114_j11991548691208_1_alg».proof.Proof.TileSwiglu
import proofs.«109114_j11991548691208_1_alg».proof.Proof.Swiglu
import Idealize.ShloMosaic.Lib.Pipeline.Value
import Idealize.ShloMosaic.Lib.StableHlo.Run

noncomputable section

namespace Cert.KernelIdeal.IsSwiglu

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The four arguments, and the arrays the windows read -/

/-- The tokens `x[e, t, k]` as launched. -/
abbrev X (c : Dev nD) : Swiglu.STok.Idx → EReal := m ((c : Thread nD τ).loc main_arg0)
/-- The gate weights `w1[e, k, h]`. -/
abbrev W1 (c : Dev nD) : Swiglu.SIn.Idx → EReal := m ((c : Thread nD τ).loc main_arg1)
/-- The down weights `w2[e, h, d]`. -/
abbrev W2 (c : Dev nD) : Swiglu.SDown.Idx → EReal := m ((c : Thread nD τ).loc main_arg2)
/-- The up weights `w3[e, k, h]`. -/
abbrev W3 (c : Dev nD) : Swiglu.SIn.Idx → EReal := m ((c : Thread nD τ).loc main_arg3)

/-- The array the token window reads is the tokens: the change of float format before the region is the identity. -/
theorem tokens_eq (c : Dev nD) : (V m c main_v0 : S8x1024x1024.Idx → EReal) = X m c := by
  dsimp only [V, hostOps0]; after_results; rfl
theorem gate_weights_eq (c : Dev nD) : (V m c main_v1 : S8x1024x2048.Idx → EReal) = W1 m c := by
  dsimp only [V, hostOps0]; after_results; rfl
theorem down_weights_eq (c : Dev nD) : (V m c main_v2 : S8x2048x1024.Idx → EReal) = W2 m c := by
  dsimp only [V, hostOps0]; after_results; rfl
theorem up_weights_eq (c : Dev nD) : (V m c main_v3 : S8x1024x2048.Idx → EReal) = W3 m c := by
  dsimp only [V, hostOps0]; after_results; rfl

/-! ## The windows' blocks at a grid point -/

/-- The token tile at point `t`. -/
abbrev xtile (c : Dev nD) (t : Fin cfg0.N) : Vec Ideal S1x256x1024 .bf16 := iblk m c 0 t
/-- The gate weights' block at point `t`. -/
abbrev w1blk (c : Dev nD) (t : Fin cfg0.N) : Vec Ideal S1x1024x2048 .bf16 := iblk m c 1 t
/-- The down weights' block at point `t`. -/
abbrev w2blk (c : Dev nD) (t : Fin cfg0.N) : Vec Ideal S1x2048x1024 .bf16 := iblk m c 2 t
/-- The up weights' block at point `t`. -/
abbrev w3blk (c : Dev nD) (t : Fin cfg0.N) : Vec Ideal S1x1024x2048 .bf16 := iblk m c 3 t

/-- Where the windows sit at a point, decided over the 32 points: every window is on the output's expert; the token
    window is on the output's row tile; every other block coordinate is zero. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 :=
  (by decide +kernel : ∀ t : Fin grid0.N, _)

/-- Every expert and every row tile is some point's. -/
theorem idx_onto : ∀ (e : Fin 8) (r : Fin 4), ∃ t : Fin cfg0.N, win0_4.index t = ![e.val, r.val, 0] :=
  (by decide +kernel : ∀ (e : Fin 8) (r : Fin 4), ∃ t : Fin grid0.N, win0_4.index t = ![e.val, r.val, 0])

/-- An entry of the token tile is the tokens' entry at the block's offset. -/
theorem xtile_read (c : Dev nD) (t : Fin cfg0.N) (p : Fin 256) (k : Fin 1024) (i : Swiglu.STok.Idx)
    (h0 : (i 0).val = win0_0.index t (0 : Fin 3))
    (h1 : (i 1).val = win0_0.index t (1 : Fin 3) * 256 + p.val)
    (h2 : (i 2).val = win0_0.index t (2 : Fin 3) * 1024 + k.val) :
    xtile m c t (ix3 (0 : Fin 1) p k) = X m c i := by
  unfold xtile iblk
  rw [View.read_apply]
  show V m c main_v0 (((cfg0.win 0).blk t).view.emb (ix3 (0 : Fin 1) p k)) = _
  refine (congrFun (tokens_eq m c) _).trans (congrArg (X m c) ?_)
  funext a
  apply Fin.ext
  match a with
  | ⟨0, _⟩ => show win0_0.index t (0 : Fin 3) * 1 + 1 * 0 = (i 0).val; omega
  | ⟨1, _⟩ => show win0_0.index t (1 : Fin 3) * 256 + 1 * p.val = (i 1).val; omega
  | ⟨2, _⟩ => show win0_0.index t (2 : Fin 3) * 1024 + 1 * k.val = (i 2).val; omega

/-- An entry of the gate weights' block is the gate weights' entry at the block's offset. -/
theorem w1blk_read (c : Dev nD) (t : Fin cfg0.N) (k : Fin 1024) (h : Fin 2048) (i : Swiglu.SIn.Idx)
    (h0 : (i 0).val = win0_1.index t (0 : Fin 3))
    (h1 : (i 1).val = win0_1.index t (1 : Fin 3) * 1024 + k.val)
    (h2 : (i 2).val = win0_1.index t (2 : Fin 3) * 2048 + h.val) :
    w1blk m c t (ix3 (0 : Fin 1) k h) = W1 m c i := by
  unfold w1blk iblk
  rw [View.read_apply]
  show V m c main_v1 (((cfg0.win 1).blk t).view.emb (ix3 (0 : Fin 1) k h)) = _
  refine (congrFun (gate_weights_eq m c) _).trans (congrArg (W1 m c) ?_)
  funext a
  apply Fin.ext
  match a with
  | ⟨0, _⟩ => show win0_1.index t (0 : Fin 3) * 1 + 1 * 0 = (i 0).val; omega
  | ⟨1, _⟩ => show win0_1.index t (1 : Fin 3) * 1024 + 1 * k.val = (i 1).val; omega
  | ⟨2, _⟩ => show win0_1.index t (2 : Fin 3) * 2048 + 1 * h.val = (i 2).val; omega

/-- An entry of the up weights' block is the up weights' entry at the block's offset. -/
theorem w3blk_read (c : Dev nD) (t : Fin cfg0.N) (k : Fin 1024) (h : Fin 2048) (i : Swiglu.SIn.Idx)
    (h0 : (i 0).val = win0_3.index t (0 : Fin 3))
    (h1 : (i 1).val = win0_3.index t (1 : Fin 3) * 1024 + k.val)
    (h2 : (i 2).val = win0_3.index t (2 : Fin 3) * 2048 + h.val) :
    w3blk m c t (ix3 (0 : Fin 1) k h) = W3 m c i := by
  unfold w3blk iblk
  rw [View.read_apply]
  show V m c main_v3 (((cfg0.win 3).blk t).view.emb (ix3 (0 : Fin 1) k h)) = _
  refine (congrFun (up_weights_eq m c) _).trans (congrArg (W3 m c) ?_)
  funext a
  apply Fin.ext
  match a with
  | ⟨0, _⟩ => show win0_3.index t (0 : Fin 3) * 1 + 1 * 0 = (i 0).val; omega
  | ⟨1, _⟩ => show win0_3.index t (1 : Fin 3) * 1024 + 1 * k.val = (i 1).val; omega
  | ⟨2, _⟩ => show win0_3.index t (2 : Fin 3) * 2048 + 1 * h.val = (i 2).val; omega

/-- An entry of the down weights' block is the down weights' entry at the block's offset. -/
theorem w2blk_read (c : Dev nD) (t : Fin cfg0.N) (h : Fin 2048) (d : Fin 1024) (i : Swiglu.SDown.Idx)
    (h0 : (i 0).val = win0_2.index t (0 : Fin 3))
    (h1 : (i 1).val = win0_2.index t (1 : Fin 3) * 2048 + h.val)
    (h2 : (i 2).val = win0_2.index t (2 : Fin 3) * 1024 + d.val) :
    w2blk m c t (ix3 (0 : Fin 1) h d) = W2 m c i := by
  unfold w2blk iblk
  rw [View.read_apply]
  show V m c main_v2 (((cfg0.win 2).blk t).view.emb (ix3 (0 : Fin 1) h d)) = _
  refine (congrFun (down_weights_eq m c) _).trans (congrArg (W2 m c) ?_)
  funext a
  apply Fin.ext
  match a with
  | ⟨0, _⟩ => show win0_2.index t (0 : Fin 3) * 1 + 1 * 0 = (i 0).val; omega
  | ⟨1, _⟩ => show win0_2.index t (1 : Fin 3) * 2048 + 1 * h.val = (i 1).val; omega
  | ⟨2, _⟩ => show win0_2.index t (2 : Fin 3) * 1024 + 1 * d.val = (i 2).val; omega

/-! ## What a point writes back -/

/-- A projection of the tile's row `p` is the projection of the token that row is. -/
theorem gate_proj_eq (c : Dev nD) (t : Fin cfg0.N) (p : Fin 256) (h : Fin 2048) (e : Fin 8) (tok : Fin 1024)
    (he : e.val = win0_4.index t (0 : Fin 3)) (htok : tok.val = win0_4.index t (1 : Fin 3) * 256 + p.val) :
    Tile.proj (xtile m c t) (w1blk m c t) p h = Swiglu.proj (X m c) (W1 m c) e tok h := by
  obtain ⟨f00, f01, f02, f10, f11, f12, -, -, -, -, -, -, -⟩ := idx_facts t
  unfold Tile.proj Swiglu.proj
  refine Finset.sum_congr rfl fun k _ => ?_
  rw [xtile_read m c t p k (ix3 e tok k) (by show e.val = _; omega) (by show tok.val = _; omega) (by show k.val = _; omega),
    w1blk_read m c t k h (ix3 e k h) (by show e.val = _; omega) (by show k.val = _; omega) (by show h.val = _; omega)]

theorem up_proj_eq (c : Dev nD) (t : Fin cfg0.N) (p : Fin 256) (h : Fin 2048) (e : Fin 8) (tok : Fin 1024)
    (he : e.val = win0_4.index t (0 : Fin 3)) (htok : tok.val = win0_4.index t (1 : Fin 3) * 256 + p.val) :
    Tile.proj (xtile m c t) (w3blk m c t) p h = Swiglu.proj (X m c) (W3 m c) e tok h := by
  obtain ⟨f00, f01, f02, -, -, -, -, -, -, f30, f31, f32, -⟩ := idx_facts t
  unfold Tile.proj Swiglu.proj
  refine Finset.sum_congr rfl fun k _ => ?_
  rw [xtile_read m c t p k (ix3 e tok k) (by show e.val = _; omega) (by show tok.val = _; omega) (by show k.val = _; omega),
    w3blk_read m c t k h (ix3 e k h) (by show e.val = _; omega) (by show k.val = _; omega) (by show h.val = _; omega)]

/-- The body's value at row `p`, column `d` of the tile is the layer's function at the array index that entry is
    written back to. -/
theorem tile_value (c : Dev nD) (t : Fin cfg0.N) (u : Fin 1) (p : Fin 256) (d : Fin 1024) (i : Swiglu.STok.Idx)
    (hi0 : (i 0).val = win0_4.index t (0 : Fin 3) * 1 + 1 * u.val)
    (hi1 : (i 1).val = win0_4.index t (1 : Fin 3) * 256 + 1 * p.val)
    (hi2 : (i 2).val = win0_4.index t (2 : Fin 3) * 1024 + 1 * d.val) :
    k0_pay1 (F := Ideal) (xtile m c t) (w1blk m c t) (w3blk m c t) (w2blk m c t) (ix3 u p d)
      = Swiglu.out (X m c) (W1 m c) (W2 m c) (W3 m c) i := by
  obtain ⟨-, -, -, -, -, -, f20, f21, f22, -, -, -, f42⟩ := idx_facts t
  have hu : u.val = 0 := by omega
  refine (Tile.payload_apply _ _ _ _ u p d).trans ?_
  unfold Swiglu.out
  refine Finset.sum_congr rfl fun h _ => ?_
  unfold Tile.hidden Swiglu.hidden
  rw [gate_proj_eq m c t p h (i 0) (i 1) (by omega) (by omega), up_proj_eq m c t p h (i 0) (i 1) (by omega) (by omega),
    w2blk_read m c t h d (ix3 (i 0) h (i 2)) (by show (i 0).val = _; omega) (by show h.val = _; omega) (by show (i 2).val = _; omega)]

theorem hz : (![0, 0, 0] : Fin 3 → Nat) = fun _ => 0 := funext fun a => by fin_cases a <;> rfl

/-- WHAT POINT `t` WRITES BACK is block `t` of the layer's function of the arguments. -/
theorem flushed_eq (c : Dev nD) (t : Fin cfg0.N) :
    (dats m 0 c).flushed 4 t
      = ((cfg0.win 4).blk t).view.read (Elt Ideal) (Swiglu.out (X m c) (W1 m c) (W2 m c) (W3 m c)) := by
  rw [Value.flushed4]
  unfold out0_4
  rw [View.canon_unit_zero hz]
  simp only [View.ld_unit_zero (S := S1x256x1024) hz, View.ld_unit_zero (S := S1x1024x2048) hz, View.ld_unit_zero (S := S1x2048x1024) hz]
  funext j
  obtain ⟨u, p, d, rfl⟩ : ∃ (u : Fin 1) (p : Fin 256) (d : Fin 1024), j = ix3 u p d := ⟨j 0, j 1, j 2, eq_ix3 j⟩
  exact tile_value m c t u p d (((cfg0.win 4).blk t).view.emb (ix3 u p d)) rfl rfl rfl

/-! ## The blocks tile the result -/

/-- An index of the result is in point `t`'s block iff each coordinate is in the block's range on its axis. -/
theorem mem_blk (t : Fin cfg0.N) (i : S8x1024x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v4).slice (win0_4.rect t)).set ↔ _
  rw [View.set_slice_whole, Rect.mem_set_unit]
  exact Iff.rfl

/-- Every index of the result is in the block of the point at its expert and its token's row tile. -/
theorem cover (i : S8x1024x1024.Idx) : ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- THE RESULT ARRAY after the run is the layer's function of the arguments. -/
theorem final (c : Dev nD) : (dats m 0 c).arrAt 4 cfg0.N = Swiglu.out (X m c) (W1 m c) (W2 m c) (W3 m c) :=
  (dats m 0 c).arrAt_eq_of_cover 4 (Swiglu.out (X m c) (W1 m c) (W2 m c) (W3 m c)) (fun t _ => flushed_eq m c t) cover

/-- The run: every weakly fair execution terminates with the result array at the layer's function of the arguments
    and the arguments unchanged. -/
theorem run : θ_run defs (onTc (τ := τ) (main (F := Ideal))) ⟨m, fun _ => 0, ρ⟩ fun r => ∀ c : Dev nD,
      r.2.mem ((c : Thread nD τ).loc main_v4) = Swiglu.out (X m c) (W1 m c) (W2 m c) (W3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.IsSwiglu

end
-- ==== Proof.lean ====
/-
  The kernel computes, for each of 8 experts, the gated feed-forward layer

      out[e, t, d] = ∑ h, (g · σ(g) · u)[e, t, h] · w2[e, h, d],    g = x[e] · w1[e],   u = x[e] · w3[e],

  σ the logistic function, tile by tile: 256 tokens of one expert at a grid point, against that expert's whole weight
  matrices, the three matrix products taken in a narrower float format. The reference computes the same expression
  as three batched matrix products around SiLU spelt out as `g · (1 / (1 + exp (-g)))`.

  On the extended reals the two are one function of the four arguments (Proof/Swiglu.lean): a change of float format is
  the identity, a block product into a zero accumulator is the plain sum of products, `1 / (1 + exp (-g))` is the
  logistic function by definition, and the factors are multiplied in the same order on both sides, so no law beyond
  re-indexing finite sums is used and the inputs' finiteness is never opened.
  • Proof/RefSwiglu.lean: the reference's result is that function, read index by index off its run.
  • Proof/TileSwiglu.lean: the kernel body's value on one tile, at one index.
  • Proof/ArrSwiglu.lean: each grid point writes back a block of that function, and the blocks tile the result.
  The three frames are the programs' runs with the result dropped; the idealization rewrote no operation, so there is
  nothing for `preserves` to state.
-/
import proofs.«109114_j11991548691208_1_alg».proof.Defs
import proofs.«109114_j11991548691208_1_alg».proof.Proof.Gen.Kernel
import proofs.«109114_j11991548691208_1_alg».proof.Proof.Gen.Kernel.Frame
import proofs.«109114_j11991548691208_1_alg».proof.Proof.Gen.KernelIdeal
import proofs.«109114_j11991548691208_1_alg».proof.Proof.Gen.KernelIdeal.Frame
import proofs.«109114_j11991548691208_1_alg».proof.Proof.Gen.KernelIdeal.Value
import proofs.«109114_j11991548691208_1_alg».proof.Proof.Gen.ReferenceIdeal
import proofs.«109114_j11991548691208_1_alg».proof.Proof.Gen.ReferenceIdeal.Run
import proofs.«109114_j11991548691208_1_alg».proof.Proof.Gen.ReferenceIdeal.Read
import proofs.«109114_j11991548691208_1_alg».proof.Proof.Gen.Pre_finite_inputs
import proofs.«109114_j11991548691208_1_alg».proof.Proof.RefSwiglu
import proofs.«109114_j11991548691208_1_alg».proof.Proof.ArrSwiglu
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array ends at the layer's function of its arguments
    (Proof/ArrSwiglu.lean) and the reference's at the same function of its own (Proof/RefSwiglu.lean). -/
theorem algebraic : Cert.algebraic_KernelIdeal_ReferenceIdeal := by
  intro m ρ m' ρ' _ hagree
  refine ⟨_, Cert.KernelIdeal.IsSwiglu.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsSwiglu.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
